-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x256 : Shape := ⟨2, ![1024, 256]⟩
abbrev S256x2048 : Shape := ⟨2, ![256, 2048]⟩
abbrev S1x2048 : Shape := ⟨2, ![1, 2048]⟩
abbrev S1024x2048 : Shape := ⟨2, ![1024, 2048]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S1024x256, .f32⟩
  | .local _ .vmem, ⟨1, _⟩ => ⟨S1024x256, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 16], ![false, false, false]⟩

def k0_cond2 (i : grid0.Coords) : BitVec 1 :=
  let arg2 : BitVec 32 := BitVec.ofNat 32 (i 2).val
  let c15_i32 : BitVec 32 := 15#32
  let v22 : BitVec 1 := Scalar.cmpi .eq arg2 c15_i32
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x4096.size a
  hwx0_0 : ∀ i : grid0.Coords, EltTy.bits .f32 = 32 ∨ (Rect.block (s := S8192x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x4096.size a
  hwx0_1 : ∀ i : grid0.Coords, EltTy.bits .f32 = 32 ∨ (Rect.block (s := S4096x4096) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S8192x4096, .f32⟩
  | .hbm, ⟨34, _⟩ => ⟨S1x4096, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192x4096, .f32⟩
  | .hbm, ⟨39, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_cst_3 : Ref sig .tc := ⟨.hbm, 18, rfl⟩
abbrev main_cst_4 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v6 : Ref sig .tc := ⟨.hbm, 25, rfl⟩
abbrev main_cst_5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_6 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call4_cst : Ref sig .tc := ⟨.hbm, 37, rfl⟩
abbrev main_call4_v0 : Ref sig .tc := ⟨.hbm, 38, rfl⟩
abbrev main_v16 : Ref sig .tc := ⟨.hbm, 39, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The quantized dense layer as ONE function of its three argument arrays, index by index, on the extended reals:

      out[R, C] = max (Σ_k x[R, k] · Q(w[k, C]) + Q(b[C])) 0,      Q(v) = roundeven(clip(v, -1, 1) · 127) / 127.

  The contraction over the 4096 values of k is also written as sixteen consecutive partial sums of 256 terms each
  (the order in which a K-blocked accumulation meets them); on the extended reals addition is a commutative monoid,
  so regrouping a finite sum needs no finiteness of the summands.
-/
import Idealize.ShloMosaic.PureOps.Ideal.Laws
import Idealize.ShloMosaic.Lib.ValueIdx
import Mathlib.Algebra.BigOperators.Fin

noncomputable section

namespace Cert.QDense

open Idealize.ShloMosaic Idealize.ShloMosaic.ValueIdx

abbrev SX : Shape := ⟨2, ![8192, 4096]⟩
abbrev SW : Shape := ⟨2, ![4096, 4096]⟩
abbrev SB : Shape := ⟨1, ![4096]⟩

/-- The quantizer of one extended real: clip to [-1, 1] (the inner bound first), scale by 127, round half to even,
    divide by 127. The three constants are kept as the binary words both programs print. -/
def quant (v : EReal) : EReal :=
  Ideal.div (Ideal.liftRound Ideal.roundHalfEven
      (min (Ideal.ofBits .f32 0x3F800000#32) (max (Ideal.ofBits .f32 0xBF800000#32) v) * Ideal.ofBits .f32 0x42FE0000#32))
    (Ideal.ofBits .f32 0x42FE0000#32)

/-- The activation array read at natural-number coordinates, zero outside its extents. -/
def natX (X : SX.Idx → EReal) (R k : ℕ) : EReal :=
  if h : R < 8192 ∧ k < 4096 then X (ix2 ⟨R, h.1⟩ ⟨k, h.2⟩) else 0

/-- The weight array read at natural-number coordinates, zero outside its extents. -/
def natW (W : SW.Idx → EReal) (k C : ℕ) : EReal :=
  if h : k < 4096 ∧ C < 4096 then W (ix2 ⟨k, h.1⟩ ⟨C, h.2⟩) else 0

/-- The bias vector read at a natural-number coordinate, zero outside its extent. -/
def natB (B : SB.Idx → EReal) (C : ℕ) : EReal :=
  if h : C < 4096 then B (ix1 ⟨C, h⟩) else 0

/-- The k-th product of the contraction for output entry (R, C). -/
def term (X : SX.Idx → EReal) (W : SW.Idx → EReal) (R C k : ℕ) : EReal :=
  natX X R k * quant (natW W k C)

/-- The partial dot product over the s-th block of 256 consecutive values of k. -/
def blockDot (X : SX.Idx → EReal) (W : SW.Idx → EReal) (R C s : ℕ) : EReal :=
  ∑ kk : Fin 256, term X W R C (256 * s + kk.val)

/-- The whole layer at natural-number coordinates. -/
def denseN (X : SX.Idx → EReal) (W : SW.Idx → EReal) (B : SB.Idx → EReal) (R C : ℕ) : EReal :=
  max ((∑ k : Fin 4096, term X W R C k.val) + quant (natB B C)) (Ideal.ofBits .f32 0x00000000#32)

/-- The whole layer as an array. -/
def dense (X : SX.Idx → EReal) (W : SW.Idx → EReal) (B : SB.Idx → EReal) : SX.Idx → EReal :=
  fun i => denseN X W B (i 0).val (i 1).val

/-- Consecutive blocks of b terms: the first n blocks are the first b·n terms. -/
theorem sum_blocks_range (g : ℕ → EReal) (b : ℕ) :
    ∀ n : ℕ, ∑ s ∈ Finset.range n, ∑ kk : Fin b, g (b * s + kk.val) = ∑ k ∈ Finset.range (b * n), g k
  | 0 => by simp
  | n + 1 => by
    rw [Finset.sum_range_succ, sum_blocks_range g b n, Nat.mul_succ, Finset.sum_range_add,
      Fin.sum_univ_eq_sum_range (fun kk => g (b * n + kk)) b]

/-- Sixteen block dot products, in order, are the whole contraction. -/
theorem sum_blockDot (X : SX.Idx → EReal) (W : SW.Idx → EReal) (R C : ℕ) :
    ∑ s ∈ Finset.range 16, blockDot X W R C s = ∑ k : Fin 4096, term X W R C k.val := by
  unfold blockDot
  rw [sum_blocks_range (term X W R C) 256 16, Fin.sum_univ_eq_sum_range (term X W R C) 4096]

end Cert.QDense

end
-- ==== Proof.Pieces.lean ====
/-
  What one run of the kernel body leaves behind, per control case, as values.

  The accumulator scratch after a point is the matmul-accumulate step applied to the point's activation and weight
  blocks and to what the scratch held before (the all-zero block at a first K step, where the body has just stored
  it); at a last K step the output block is the bias-and-relu epilogue of the point's bias block and of the scratch
  as that same point has just left it. These are read off the stores each case makes: a store through the whole
  buffer covers every earlier one, and a load that follows a store sees what was stored.
-/
import proofs.«149762_j42726334660724_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- A rectangle at offsets (0, 0). -/
theorem hz : (![0, 0] : Fin 2 → Nat) = fun _ => 0 := funext fun a => by fin_cases a <;> rfl

/-- First K step: the scratch is zeroed, then the step accumulates into the zero block. -/
theorem scratch_first (c : Dev nD) (i : grid0.Coords) (arg3 : Memref sig .tc .vmem S1024x256 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond0_0 i) (hc1 : ¬cond0_1 i)
    (x0 : Vec F S1024x256 .f32) (x1 : Vec F S256x2048 .f32) (x2 : Vec F S1x2048 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x2048) hz, View.readCov_unit_zero (S := S1024x2048) _ hz]
  simp only [View.readAt_eq_ld, harg3.read_unread, harg4.read_unread, View.ld_unit_zero (S := S1024x256) hz,
    View.ld_unit_zero (S := S256x2048) hz]

/-- Middle K step: the step accumulates into what the scratch held. -/
theorem scratch_middle (c : Dev nD) (i : grid0.Coords) (arg3 : Memref sig .tc .vmem S1024x256 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : ¬cond0_1 i)
    (x0 : Vec F S1024x256 .f32) (x1 : Vec F S256x2048 .f32) (x2 : Vec F S1x2048 .f32) (xs0 : Vec F S1024x2048 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread, View.ld_unit_zero (S := S1024x256) hz,
    View.ld_unit_zero (S := S256x2048) hz, View.ld_unit_zero (S := S1024x2048) hz]

/-- Last K step, the scratch: the same accumulation. -/
theorem scratch_last (c : Dev nD) (i : grid0.Coords) (arg3 : Memref sig .tc .vmem S1024x256 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x256 .f32) (x1 : Vec F S256x2048 .f32) (x2 : Vec F S1x2048 .f32) (xs0 : Vec F S1024x2048 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread, View.ld_unit_zero (S := S1024x256) hz,
    View.ld_unit_zero (S := S256x2048) hz, View.ld_unit_zero (S := S1024x2048) hz]

/-- Last K step, the output block: bias and relu over the scratch as this step has just left it. -/
theorem out_last (c : Dev nD) (i : grid0.Coords) (arg3 : Memref sig .tc .vmem S1024x256 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x256 .f32) (x1 : Vec F S256x2048 .f32) (x2 : Vec F S1x2048 .f32) (xs0 : Vec F S1024x2048 .f32) :
    out0_C_3 c i arg3 harg3 arg4 harg4 arg5 harg5 arg6 harg6 arg7 harg7 hc0 hc1 x0 x1 x2 xs0 = k0_pay3 x2 (k0_pay2 x0 x1 xs0) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread,
    View.ld_unit_zero (S := S1024x256) hz, View.ld_unit_zero (S := S256x2048) hz, View.ld_unit_zero (S := S1x2048) hz,
    View.ld_unit_zero (S := S1024x2048) hz, View.readCov_unit_zero (S := S1024x2048) _ hz]

end Cert.KernelIdeal.Pieces

end
-- ==== Proof.Payload.lean ====
/-
  The body's three stored values, read at one entry of the block, over the extended reals.

  * the reset stores the zero word everywhere;
  * the accumulate step at (r, c) adds to the accumulator's entry the dot product, over the 256 values of the
    block's contraction coordinate, of row r of the activation block with column c of the QUANTIZED weight block —
    the narrowing of both operands to bf16 is the identity on the extended reals, and a matrix product into a zero
    accumulator is the plain sum of products;
  * the epilogue at (r, c) adds the quantized bias entry of column c (the one-row bias block broadcast over the
    rows) and takes the maximum with the zero word.
-/
import proofs.«149762_j42726334660724_1_alg».proof.Proof.Gen.KernelIdeal.Skeleton
import proofs.«149762_j42726334660724_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Cert.QDense Idealize.ShloMosaic Idealize.ShloMosaic.ValueIdx

/-! ## The block matrix product at an entry -/

theorem lhs_axis0 (i : S1024x2048.Idx) (q : dot_S1024x256_S256x2048_S1024x2048_1_0_0_1_n_n.contr.Idx) :
    (dot_S1024x256_S256x2048_S1024x2048_1_0_0_1_n_n.lhsIdx i q 0).val = (i 0).val := by
  unfold DotDims.lhsIdx
  rw [dif_neg (show ¬(0 : Fin S1024x256.rank) ∈ dot_S1024x256_S256x2048_S1024x2048_1_0_0_1_n_n.lhsBatch by decide), dif_pos (show (0 : Fin S1024x256.rank) ∈ dot_S1024x256_S256x2048_S1024x2048_1_0_0_1_n_n.lhsNonContracting by decide)]
  rfl
theorem lhs_axis1 (i : S1024x2048.Idx) (q : dot_S1024x256_S256x2048_S1024x2048_1_0_0_1_n_n.contr.Idx) :
    (dot_S1024x256_S256x2048_S1024x2048_1_0_0_1_n_n.lhsIdx i q 1).val = (q ⟨0, by decide⟩).val :=
  dot_S1024x256_S256x2048_S1024x2048_1_0_0_1_n_n.lhsIdx_val_of_single rfl i q
theorem rhs_axis0 (i : S1024x2048.Idx) (q : dot_S1024x256_S256x2048_S1024x2048_1_0_0_1_n_n.contr.Idx) :
    (dot_S1024x256_S256x2048_S1024x2048_1_0_0_1_n_n.rhsIdx i q 0).val = (q ⟨0, by decide⟩).val :=
  dot_S1024x256_S256x2048_S1024x2048_1_0_0_1_n_n.rhsIdx_val_of_single rfl i q
theorem rhs_axis1 (i : S1024x2048.Idx) (q : dot_S1024x256_S256x2048_S1024x2048_1_0_0_1_n_n.contr.Idx) :
    (dot_S1024x256_S256x2048_S1024x2048_1_0_0_1_n_n.rhsIdx i q 1).val = (i 1).val := by
  unfold DotDims.rhsIdx
  rw [dif_neg (show ¬(1 : Fin S256x2048.rank) ∈ dot_S1024x256_S256x2048_S1024x2048_1_0_0_1_n_n.rhsBatch by decide), dif_pos (show (1 : Fin S256x2048.rank) ∈ dot_S1024x256_S256x2048_S1024x2048_1_0_0_1_n_n.rhsNonContracting by decide)]
  rfl

/-- A [1024, 256] by [256, 2048] product into the zero accumulator, at (r, c): the sum over the contraction
    coordinate of row r times column c. -/
theorem matmul_zero_apply {φ₁ φ₂ : FTy} (l : FVec Ideal S1024x256 φ₁) (w : FVec Ideal S256x2048 φ₂) (r : Fin 1024) (cc : Fin 2048) :
    matmul dot_S1024x256_S256x2048_S1024x2048_1_0_0_1_n_n none l w (constant S1024x2048 .f32 0x00000000#32) (ix2 r cc)
      = ∑ k : Fin 256, l (ix2 r k) * w (ix2 k cc) := by
  simp only [matmul]
  rw [Ideal.matmul_constant_zero_apply, ← Equiv.sum_comp (ValueIdx.contrEquiv1 dot_S1024x256_S256x2048_S1024x2048_1_0_0_1_n_n 256 rfl rfl).symm]
  refine Finset.sum_congr rfl fun k _ => ?_
  have hk := ValueIdx.contrEquiv1_symm_val dot_S1024x256_S256x2048_S1024x2048_1_0_0_1_n_n 256 rfl rfl k
  have el : dot_S1024x256_S256x2048_S1024x2048_1_0_0_1_n_n.lhsIdx (ix2 r cc) ((ValueIdx.contrEquiv1 dot_S1024x256_S256x2048_S1024x2048_1_0_0_1_n_n 256 rfl rfl).symm k) = ix2 r k := funext fun a => Fin.ext (by
    match a with
    | ⟨0, _⟩ => exact lhs_axis0 _ _
    | ⟨1, _⟩ => exact (lhs_axis1 _ _).trans hk)
  have er : dot_S1024x256_S256x2048_S1024x2048_1_0_0_1_n_n.rhsIdx (ix2 r cc) ((ValueIdx.contrEquiv1 dot_S1024x256_S256x2048_S1024x2048_1_0_0_1_n_n 256 rfl rfl).symm k) = ix2 k cc := funext fun a => Fin.ext (by
    match a with
    | ⟨0, _⟩ => exact (rhs_axis0 _ _).trans hk
    | ⟨1, _⟩ => exact rhs_axis1 _ _)
  rw [el, er]

/-! ## The three stored values -/

/-- The reset value: the zero word at every entry. -/
theorem reset_apply (j : S1024x2048.Idx) : k0_pay1 (F := Ideal) j = Ideal.ofBits .f32 0x00000000#32 := by
  unfold k0_pay1
  simp only [shapeCast_self]
  rfl

/-- The accumulate step at (r, c). -/
theorem step_apply (x0 : Vec Ideal S1024x256 .f32) (x1 : Vec Ideal S256x2048 .f32) (acc : Vec Ideal S1024x2048 .f32)
    (r : Fin 1024) (cc : Fin 2048) :
    k0_pay2 x0 x1 acc (ix2 r cc) = acc (ix2 r cc) + ∑ k : Fin 256, x0 (ix2 r k) * quant (x1 (ix2 k cc)) := by
  unfold k0_pay2
  simp only [shapeCast_self]
  refine (addf_apply _ _ _).trans ?_
  refine congrArg (acc (ix2 r cc) + ·) ?_
  refine (matmul_zero_apply _ _ r cc).trans ?_
  rfl

/-- The epilogue at (r, c). -/
theorem epilogue_apply (b : Vec Ideal S1x2048 .f32) (acc : Vec Ideal S1024x2048 .f32) (r : Fin 1024) (cc : Fin 2048) :
    k0_pay3 b acc (ix2 r cc)
      = max (acc (ix2 r cc) + quant (b (ix2 (0 : Fin 1) cc))) (Ideal.ofBits .f32 0x00000000#32) := by
  unfold k0_pay3
  simp only [shapeCast_self]
  refine (maximumf_apply _ _ _).trans ?_
  refine congrArg (max · _) ?_
  refine (addf_apply _ _ _).trans ?_
  refine congrArg (acc (ix2 r cc) + ·) ?_
  refine (broadcastTo_1b_ab_apply _ _ r cc).trans ?_
  rfl

end Cert.KernelIdeal.Payload

end
-- ==== Proof.Blocks.lean ====
/-
  The three input blocks of a grid point, read at one entry, as entries of the whole argument arrays.

  The grid is 8 × 2 × 16 with the K coordinate innermost, so point t has row block t / 32, column block
  (t / 16) % 2 and K block t % 16. The activation window holds rows 1024·(t/32) … and K columns 256·(t%16) …; the
  weight window holds K rows 256·(t%16) … and columns 2048·((t/16)%2) …; the bias window holds columns
  2048·((t/16)%2) … of the bias viewed as one row, which the host made by reshaping the bias vector to [1, 4096].
-/
import proofs.«149762_j42726334660724_1_alg».proof.Proof.Gen.KernelIdeal.Frame
import proofs.«149762_j42726334660724_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Cert.QDense
open Idealize.ShloMosaic Idealize.ShloMosaic.TcCoe Idealize.ShloMosaic.ValueIdx Idealize.SL.Sem

variable (m : (ℓ : Loc nD τ sig) → Buf (Elt Ideal) ℓ)

/-- The three argument arrays as launched. -/
abbrev argX (c : Dev nD) : SX.Idx → EReal := m ((c : Thread nD τ).loc main_arg0)
abbrev argW (c : Dev nD) : SW.Idx → EReal := m ((c : Thread nD τ).loc main_arg1)
abbrev argB (c : Dev nD) : SB.Idx → EReal := m ((c : Thread nD τ).loc main_arg2)

/-- The three input blocks of point t, at their literal shapes. -/
abbrev xblk (c : Dev nD) (t : Fin cfg0.N) : Vec Ideal S1024x256 .f32 := iblk m c 0 t
abbrev wblk (c : Dev nD) (t : Fin cfg0.N) : Vec Ideal S256x2048 .f32 := iblk m c 1 t
abbrev bblk (c : Dev nD) (t : Fin cfg0.N) : Vec Ideal S1x2048 .f32 := iblk m c 2 t

/-- The block indices of the three input windows and of the output window, in closed form over the grid. -/
theorem idx_x : ∀ t : Fin cfg0.N, win0_0.index t 0 = t.val / 32 ∧ win0_0.index t 1 = t.val % 16 :=
  (by decide +kernel : ∀ t : Fin grid0.N, win0_0.index t 0 = t.val / 32 ∧ win0_0.index t 1 = t.val % 16)
theorem idx_w : ∀ t : Fin cfg0.N, win0_1.index t 0 = t.val % 16 ∧ win0_1.index t 1 = t.val / 16 % 2 :=
  (by decide +kernel : ∀ t : Fin grid0.N, win0_1.index t 0 = t.val % 16 ∧ win0_1.index t 1 = t.val / 16 % 2)
theorem idx_b : ∀ t : Fin cfg0.N, win0_2.index t 0 = 0 ∧ win0_2.index t 1 = t.val / 16 % 2 :=
  (by decide +kernel : ∀ t : Fin grid0.N, win0_2.index t 0 = 0 ∧ win0_2.index t 1 = t.val / 16 % 2)
theorem idx_o : ∀ t : Fin cfg0.N, win0_3.index t 0 = t.val / 32 ∧ win0_3.index t 1 = t.val / 16 % 2 :=
  (by decide +kernel : ∀ t : Fin grid0.N, win0_3.index t 0 = t.val / 32 ∧ win0_3.index t 1 = t.val / 16 % 2)

/-- The activation block at (r, k). -/
theorem xblk_apply (c : Dev nD) (t : Fin cfg0.N) (r : Fin 1024) (k : Fin 256) :
    xblk m c t (ix2 r k) = natX (argX m c) (1024 * (t.val / 32) + r.val) (256 * (t.val % 16) + k.val) := by
  have hN : t.val < 256 := lt_of_lt_of_eq t.isLt (show cfg0.N = 256 from N_0)
  have hr := r.isLt
  have hk := k.isLt
  have hi := idx_x t
  unfold natX
  rw [dif_pos ⟨by omega, by omega⟩]
  show ((cfg0.win 0).blk t).view.read (Elt Ideal) (V m c (Pipeline.arrRef spec0 0)) (ix2 r k) = _
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = 1024 * (t.val / 32) + r.val; rw [hi.1]; omega
  | ⟨1, _⟩ => show win0_0.index t 1 * 256 + 1 * k.val = 256 * (t.val % 16) + k.val; rw [hi.2]; omega

/-- The weight block at (k, c). -/
theorem wblk_apply (c : Dev nD) (t : Fin cfg0.N) (k : Fin 256) (cc : Fin 2048) :
    wblk m c t (ix2 k cc) = natW (argW m c) (256 * (t.val % 16) + k.val) (2048 * (t.val / 16 % 2) + cc.val) := by
  have hN : t.val < 256 := lt_of_lt_of_eq t.isLt (show cfg0.N = 256 from N_0)
  have hc := cc.isLt
  have hk := k.isLt
  have hi := idx_w t
  unfold natW
  rw [dif_pos ⟨by omega, by omega⟩]
  show ((cfg0.win 1).blk t).view.read (Elt Ideal) (V m c (Pipeline.arrRef spec0 1)) (ix2 k cc) = _
  rw [View.read_apply]
  show V m c main_arg1 _ = _
  rw [V_main_arg1]
  refine congrArg (m ((c : Thread nD τ).loc main_arg1)) (funext fun a => Fin.ext ?_)
  match a with
  | ⟨0, _⟩ => show win0_1.index t 0 * 256 + 1 * k.val = 256 * (t.val % 16) + k.val; rw [hi.1]; omega
  | ⟨1, _⟩ => show win0_1.index t 1 * 2048 + 1 * cc.val = 2048 * (t.val / 16 % 2) + cc.val; rw [hi.2]; omega

/-- What the bias window's array holds when the region starts: the bias vector as one row. -/
theorem bias_row (c : Dev nD) :
    (V m c main_v0 : S1x4096.Idx → EReal) = shapeCast S1x4096 (argB m c) shapeCasts_S4096_S1x4096 := by
  dsimp only [V, hostOps0]
  after_results
  rfl

/-- The bias block at (0, c). -/
theorem bblk_apply (c : Dev nD) (t : Fin cfg0.N) (cc : Fin 2048) :
    bblk m c t (ix2 (0 : Fin 1) cc) = natB (argB m c) (2048 * (t.val / 16 % 2) + cc.val) := by
  have hN : t.val < 256 := lt_of_lt_of_eq t.isLt (show cfg0.N = 256 from N_0)
  have hc := cc.isLt
  have hi := idx_b t
  have hlt : 2048 * (t.val / 16 % 2) + cc.val < 4096 := by omega
  unfold natB
  rw [dif_pos hlt]
  show ((cfg0.win 2).blk t).view.read (Elt Ideal) (V m c (Pipeline.arrRef spec0 2)) (ix2 (0 : Fin 1) cc) = _
  rw [View.read_apply]
  show V m c main_v0 _ = _
  rw [bias_row]
  refine Eq.trans (congrArg _ (?_ : _ = ix2 (0 : Fin 1) (⟨2048 * (t.val / 16 % 2) + cc.val, hlt⟩ : Fin 4096))) (shapeCast_a_1a_apply _ _ _ _)
  refine funext fun a => Fin.ext ?_
  match a with
  | ⟨0, _⟩ => show win0_2.index t 0 * 1 + 1 * 0 = 0; rw [hi.1]
  | ⟨1, _⟩ => show win0_2.index t 1 * 2048 + 1 * cc.val = 2048 * (t.val / 16 % 2) + cc.val; rw [hi.2]; omega

end Cert.KernelIdeal.Blocks

end
-- ==== Proof.KernelValue.lean ====
/-
  What the kernel's result array holds after the run, over the extended reals: the quantized dense layer of the
  three argument arrays.

  Along one run of sixteen K steps (row block and column block fixed) the accumulator scratch, after the step with K
  block j, holds at (r, c) the zero word plus the first j + 1 block dot products of output entry
  (1024·rowblock + r, 2048·colblock + c): the first step stores zero and adds block 0, each later step adds its own
  block. At the last step the output block is the epilogue of that full sum — all sixteen blocks, which are the whole
  contraction — and only those last steps write their block back. The sixteen row-and-column blocks tile the
  [8192, 4096] result, so the array ends as the dense layer everywhere.
-/
import proofs.«149762_j42726334660724_1_alg».proof.Proof.Gen.KernelIdeal.Value
import proofs.«149762_j42726334660724_1_alg».proof.Proof.Spec
import proofs.«149762_j42726334660724_1_alg».proof.Proof.Pieces
import proofs.«149762_j42726334660724_1_alg».proof.Proof.Payload
import proofs.«149762_j42726334660724_1_alg».proof.Proof.Blocks
import Idealize.ShloMosaic.Lib.Pipeline.Value

noncomputable section

namespace Cert.KernelIdeal.KValue

open Cert.KernelIdeal Cert.KernelIdeal.Gen Cert.KernelIdeal.Blocks Cert.KernelIdeal.Payload Cert.QDense
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## One step's contribution -/

/-- What point n adds to entry (r, c) of its accumulator block: the dot product over the point's K block, for the
    output entry the point's row and column blocks place (r, c) at. -/
def addend (c : Dev nD) (n : ℕ) (r : Fin 1024) (cc : Fin 2048) : EReal :=
  blockDot (argX m c) (argW m c) (1024 * (n / 32) + r.val) (2048 * (n / 16 % 2) + cc.val) (n % 16)

/-- The accumulate step at point t, over any accumulator contents. -/
theorem step_sum (c : Dev nD) (t : Fin cfg0.N) (acc : Vec Ideal S1024x2048 .f32) (r : Fin 1024) (cc : Fin 2048) :
    k0_pay2 (xblk m c t) (wblk m c t) acc (ix2 r cc) = acc (ix2 r cc) + addend m c t.val r cc := by
  refine (step_apply (xblk m c t) (wblk m c t) acc r cc).trans ?_
  refine congrArg (acc (ix2 r cc) + ·) ?_
  unfold addend blockDot term
  refine Finset.sum_congr rfl fun k _ => ?_
  rw [xblk_apply, wblk_apply]

/-- What a first K step leaves in the scratch: zero plus its block (what the scratch held before does not enter). -/
theorem scratch_step_first (c : Dev nD) (n : ℕ) (h : n < cfg0.N) (h0 : n % 16 = 0) (acc : Vec Ideal S1024x2048 .f32)
    (r : Fin 1024) (cc : Fin 2048) :
    Value.scAt0_0 m c n h acc (ix2 r cc) = Ideal.ofBits .f32 0x00000000#32 + addend m c n r cc := by
  have h1 : ¬n % 16 = 15 := by omega
  unfold Value.scAt0_0
  rw [dif_pos h0, dif_neg h1]
  refine (congrFun (Pieces.scratch_first c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) _ _ (xblk m c ⟨n, h⟩) (wblk m c ⟨n, h⟩) (bblk m c ⟨n, h⟩)) (ix2 r cc)).trans ?_
  refine (step_sum m c ⟨n, h⟩ _ r cc).trans ?_
  rw [reset_apply]

/-- What any later K step leaves in the scratch: what it held plus the step's block. -/
theorem scratch_step_later (c : Dev nD) (n : ℕ) (h : n < cfg0.N) (h0 : ¬n % 16 = 0) (acc : Vec Ideal S1024x2048 .f32)
    (r : Fin 1024) (cc : Fin 2048) :
    Value.scAt0_0 m c n h acc (ix2 r cc) = acc (ix2 r cc) + addend m c n r cc := by
  unfold Value.scAt0_0
  by_cases h1 : n % 16 = 15
  · rw [dif_neg h0, dif_pos h1]
    refine (congrFun (Pieces.scratch_last c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) _ _ (xblk m c ⟨n, h⟩) (wblk m c ⟨n, h⟩) (bblk m c ⟨n, h⟩) acc) (ix2 r cc)).trans ?_
    exact step_sum m c ⟨n, h⟩ acc r cc
  · rw [dif_neg h0, dif_neg h1]
    refine (congrFun (Pieces.scratch_middle c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) _ _ (xblk m c ⟨n, h⟩) (wblk m c ⟨n, h⟩) (bblk m c ⟨n, h⟩) acc) (ix2 r cc)).trans ?_
    exact step_sum m c ⟨n, h⟩ acc r cc

/-! ## The scratch after any point, and the output block at a last step -/

/-- After point t the scratch holds, at (r, c), the zero word plus the block dot products of K blocks 0 … t % 16. -/
theorem scratch_after (c : Dev nD) (t : Fin cfg0.N) (r : Fin 1024) (cc : Fin 2048) :
    (outsAt0 m c t.val t.isLt).2 (ix2 r cc)
      = Ideal.ofBits .f32 0x00000000#32
        + ∑ s ∈ Finset.range (t.val % 16 + 1),
            blockDot (argX m c) (argW m c) (1024 * (t.val / 32) + r.val) (2048 * (t.val / 16 % 2) + cc.val) s := by
  have hN : t.val < 256 := lt_of_lt_of_eq t.isLt (show cfg0.N = 256 from N_0)
  rw [Value.soutsAt0_0_eq m c t]
  refine (Pipeline.accAt_add_apply (ι := S1024x2048.Idx) (β := EReal)
    (fun n h => Value.scAt0_0 m c n h (VS0_0.read (Elt Ideal) VS0_0.junk)) (Value.scAt0_0 m c)
    (fun _ => Ideal.ofBits .f32 0x00000000#32) (fun n i => addend m c n (i 0) (i 1)) (16 * (t.val / 16)) 15
    (fun h i => by
      obtain ⟨r', cc', rfl⟩ : ∃ (r' : Fin 1024) (cc' : Fin 2048), i = ix2 r' cc' := ⟨i 0, i 1, eq_ix2 i⟩
      exact scratch_step_first m c _ h (by omega) _ r' cc')
    (fun n h acc i hb he => by
      obtain ⟨r', cc', rfl⟩ : ∃ (r' : Fin 1024) (cc' : Fin 2048), i = ix2 r' cc' := ⟨i 0, i 1, eq_ix2 i⟩
      exact scratch_step_later m c n h (by omega) acc r' cc')
    (t.val % 16) (by omega) _ (ix2 r cc)).trans ?_
  refine congrArg (Ideal.ofBits .f32 0x00000000#32 + ·) (Finset.sum_congr rfl fun s hs => ?_)
  have hs' : s < 16 := by have := Finset.mem_range.mp hs; omega
  show addend m c (16 * (t.val / 16) + s) r cc = _
  unfold addend
  rw [show (16 * (t.val / 16) + s) / 32 = t.val / 32 from by omega,
    show (16 * (t.val / 16) + s) / 16 % 2 = t.val / 16 % 2 from by omega,
    show (16 * (t.val / 16) + s) % 16 = s from by omega]

/-- At a last K step the output block is the epilogue over the scratch as the step leaves it. -/
theorem out_is_epilogue (c : Dev nD) (t : Fin cfg0.N) (h0 : ¬t.val % 16 = 0) (h1 : t.val % 16 = 15) :
    (outsAt0 m c t.val t.isLt).1 = k0_pay3 (bblk m c t) (outsAt0 m c t.val t.isLt).2 := by
  rw [outsAt0_C m c t h0 h1]
  dsimp only
  exact (Pieces.out_last c (grid0.coords t) (ms0_0 t) (hs0_0 t) (ms0_1 t) (hs0_1 t) (ms0_2 t) (hs0_2 t) (ms0_3 t) (hs0_3 t) scM0_0 (Memref.isWhole_whole _) _ _ (xblk m c t) (wblk m c t) (bblk m c t) _).trans
    (congrArg (k0_pay3 (bblk m c t)) (Pieces.scratch_last c (grid0.coords t) (ms0_0 t) (hs0_0 t) (ms0_1 t) (hs0_1 t) (ms0_2 t) (hs0_2 t) (ms0_3 t) (hs0_3 t) scM0_0 (Memref.isWhole_whole _) _ _ (xblk m c t) (wblk m c t) (bblk m c t) _).symm)

/-- … which at (r, c) is the dense layer's entry the point's blocks place (r, c) at. -/
theorem out_after (c : Dev nD) (t : Fin cfg0.N) (h1 : t.val % 16 = 15) (r : Fin 1024) (cc : Fin 2048) :
    (outsAt0 m c t.val t.isLt).1 (ix2 r cc)
      = denseN (argX m c) (argW m c) (argB m c) (1024 * (t.val / 32) + r.val) (2048 * (t.val / 16 % 2) + cc.val) := by
  rw [out_is_epilogue m c t (by omega) h1]
  refine (epilogue_apply (bblk m c t) _ r cc).trans ?_
  rw [scratch_after m c t r cc, bblk_apply, show t.val % 16 + 1 = 16 from by omega, sum_blockDot]
  unfold denseN
  rw [Ideal.ofBits_zero_f32, zero_add]

/-! ## From blocks to the array -/

/-- What a flushing point writes back is its block of the dense layer. -/
theorem flushed_eq (c : Dev nD) (t : Fin cfg0.N) (hf : (cfg0.win 3).flush t = true) :
    (dats m 0 c).flushed 3 t
      = ((cfg0.win 3).blk t).view.read (Elt Ideal) (dense (argX m c) (argW m c) (argB m c)) := by
  have h1 : t.val % 16 = 15 := (flush0_3 t).mp hf
  have hi := idx_o t
  rw [Value.flushed3]
  funext j
  obtain ⟨r, cc, rfl⟩ : ∃ (r : Fin 1024) (cc : Fin 2048), j = ix2 r cc := ⟨j 0, j 1, eq_ix2 j⟩
  have hr := r.isLt
  have hc := cc.isLt
  show (outsAt0 m c t.val t.isLt).1 (ix2 r cc) = dense (argX m c) (argW m c) (argB m c) (((cfg0.win 3).blk t).view.emb (ix2 r cc))
  rw [out_after m c t h1 r cc]
  unfold dense
  have e0 : ((((cfg0.win 3).blk t).view.emb (ix2 r cc)) 0).val = 1024 * (t.val / 32) + r.val := by
    show win0_3.index t 0 * 1024 + 1 * r.val = _; rw [hi.1]; omega
  have e1 : ((((cfg0.win 3).blk t).view.emb (ix2 r cc)) 1).val = 2048 * (t.val / 16 % 2) + cc.val := by
    show win0_3.index t 1 * 2048 + 1 * cc.val = _; rw [hi.2]; omega
  rw [e0, e1]

/-- An index of the result array is in point t's block iff each coordinate is in the block's range on its axis. -/
theorem mem_blk (t : Fin cfg0.N) (i : S8192x4096.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v1).slice (win0_3.rect t)).set ↔ _
  rw [View.set_slice_whole, Rect.mem_set_unit]
  exact Iff.rfl

/-- Every entry (R, C) is in the block of the last K step of row block R / 1024 and column block C / 2048. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 256 := N_0
  have hlt : 32 * ((i 0).val / 1024) + 16 * ((i 1).val / 2048) + 15 < cfg0.N := by rw [hN]; omega
  have hv : (⟨32 * ((i 0).val / 1024) + 16 * ((i 1).val / 2048) + 15, hlt⟩ : Fin cfg0.N).val
      = 32 * ((i 0).val / 1024) + 16 * ((i 1).val / 2048) + 15 := rfl
  have hi := idx_o ⟨32 * ((i 0).val / 1024) + 16 * ((i 1).val / 2048) + 15, hlt⟩
  rw [hv] at hi
  refine ⟨⟨32 * ((i 0).val / 1024) + 16 * ((i 1).val / 2048) + 15, hlt⟩, (flush0_3 _).mpr (by rw [hv]; omega), ?_⟩
  rw [mem_blk]
  intro a
  match a with
  | ⟨0, _⟩ =>
    show win0_3.index _ 0 * 1024 ≤ (i 0).val ∧ (i 0).val < win0_3.index _ 0 * 1024 + 1024
    rw [hi.1]; omega
  | ⟨1, _⟩ =>
    show win0_3.index _ 1 * 2048 ≤ (i 1).val ∧ (i 1).val < win0_3.index _ 1 * 2048 + 2048
    rw [hi.2]; omega

/-- The result array after the run is the dense layer of the arguments. -/
theorem final (c : Dev nD) :
    (dats m 0 c).arrAt 3 cfg0.N = dense (argX m c) (argW m c) (argB m c) :=
  (dats m 0 c).arrAt_eq_of_cover 3 (dense (argX m c) (argW m c) (argB m c)) (fun t hf => flushed_eq m c t hf) cover

/-- The kernel's run, read: the result array at the dense layer, the three arguments unchanged. -/
theorem run : θ_run defs (onTc (τ := τ) (main (F := Ideal))) ⟨m, fun _ => 0, ρ⟩ fun r => ∀ c : Dev nD,
      r.2.mem ((c : Thread nD τ).loc main_v1) = dense (argX m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KValue

end
-- ==== Proof.RefValue.lean ====
/-
  The reference's result, read entry by entry, is the quantized dense layer: its clip, scale, round and divide of
  the weight and of the bias are the quantizer at each entry (the host's round-to-even and division are the same
  functions of an extended real as the kernel's), its `dot_general` at (R, C) is the sum over all 4096 values of
  k of x[R, k] · Q(w[k, C]), the bias is broadcast along the rows, and relu is the maximum with the zero word.
-/
import proofs.«149762_j42726334660724_1_alg».proof.Proof.Gen.ReferenceIdeal.Read
import proofs.«149762_j42726334660724_1_alg».proof.Proof.Spec
import Idealize.ShloMosaic.Lib.ValueIdx

noncomputable section

namespace Cert.ReferenceIdeal.RefValue

open Cert.ReferenceIdeal Cert.ReferenceIdeal.Read Cert.QDense
open Idealize.ShloMosaic Idealize.ShloMosaic.ValueIdx

/-- Inside their extents the arrays read at natural-number coordinates are the arrays. -/
theorem natX_of (X : SX.Idx → EReal) (R : Fin 8192) (k : Fin 4096) : natX X R.val k.val = X (ix2 R k) := by
  unfold natX
  rw [dif_pos ⟨R.isLt, k.isLt⟩]
theorem natW_of (W : SW.Idx → EReal) (k : Fin 4096) (C : Fin 4096) : natW W k.val C.val = W (ix2 k C) := by
  unfold natW
  rw [dif_pos ⟨k.isLt, C.isLt⟩]
theorem natB_of (B : SB.Idx → EReal) (C : Fin 4096) : natB B C.val = B (ix1 C) := by
  unfold natB
  rw [dif_pos C.isLt]

/-- The reference's quantized weight at an entry. -/
theorem weight_quant (x1 : S4096x4096.Idx → EReal) (j : S4096x4096.Idx) :
    val_main_v5 (F := Ideal) x1 j = quant (x1 j) := by
  simp only [val_main_v5_apply, val_main_v4_apply, val_main_cst_2_apply, val_main_v3_apply, val_main_v2_apply,
    val_main_v1_apply, val_main_cst_1_apply, val_main_v0_apply, val_main_call0_v4_apply, val_main_call0_v3_apply,
    val_main_cst_0_apply, val_main_call0_v2_apply, val_main_call0_v1_apply, val_main_call0_v0_apply, val_main_cst_apply]
  rfl

/-- The reference's quantized bias at an entry. -/
theorem bias_quant (x2 : S4096.Idx → EReal) (j : S4096.Idx) :
    val_main_v11 (F := Ideal) x2 j = quant (x2 j) := by
  simp only [val_main_v11_apply, val_main_v10_apply, val_main_cst_6_apply, val_main_v9_apply, val_main_v8_apply,
    val_main_v7_apply, val_main_cst_5_apply, val_main_v6_apply, val_main_call2_v4_apply, val_main_call2_v3_apply,
    val_main_cst_4_apply, val_main_call2_v2_apply, val_main_call2_v1_apply, val_main_call2_v0_apply, val_main_cst_3_apply]
  rfl

/-- The reference's last stage is the dense layer. -/
theorem result_eq (x0 : S8192x4096.Idx → EReal) (x1 : S4096x4096.Idx → EReal) (x2 : S4096.Idx → EReal) :
    val_main_v16 (F := Ideal) x0 x1 x2 = dense x0 x1 x2 := by
  funext i
  obtain ⟨R, C, rfl⟩ : ∃ (R : Fin 8192) (C : Fin 4096), i = ix2 R C := ⟨i 0, i 1, eq_ix2 i⟩
  have hl : ∀ k : Fin 4096, lidx_main_v12 (ix2 R C) k = ix2 R k := fun k => funext fun a => by
    match a with
    | ⟨0, _⟩ => rfl
    | ⟨1, _⟩ => rfl
  have hr : ∀ k : Fin 4096, ridx_main_v12 (ix2 R C) k = ix2 k C := fun k => funext fun a => by
    match a with
    | ⟨0, _⟩ => rfl
    | ⟨1, _⟩ => rfl
  have hb : idx_main_v13 (idx_main_v14 (ix2 R C)) = ix1 C := funext fun a => by
    match a with
    | ⟨0, _⟩ => rfl
  rw [val_main_v16_apply, val_main_v15_apply, val_main_v12_apply, val_main_v14_apply, val_main_v13_apply,
    val_main_call4_v0_apply, val_main_call4_cst_apply, bias_quant, hb]
  simp only [weight_quant, hl, hr]
  show max ((∑ k : Fin 4096, x0 (ix2 R k) * quant (x1 (ix2 k C))) + quant (x2 (ix1 C))) (Ideal.ofBits .f32 0x00000000#32)
    = denseN x0 x1 x2 R.val C.val
  unfold denseN term
  simp only [natX_of, natW_of, natB_of]

end Cert.ReferenceIdeal.RefValue

end
-- ==== Proof.lean ====
/- The quantized dense layer  out = relu(x · Q(w) + Q(b)),  Q(v) = roundeven(clip(v, -1, 1) · 127) / 127,  computed by a
   K-blocked matrix-product kernel, against the same layer written as one matrix product.

   Over the extended reals the two agree entry by entry. The kernel walks, for each of the 8 × 2 blocks of the
   [8192, 4096] result, the sixteen blocks of 256 contraction indices in order: it zeroes an accumulator, adds each
   block's partial product of the activation block with the quantized weight block (narrowing to bf16 is the
   identity on the extended reals), and after the last block adds the quantized bias row and clamps at zero. The
   reference quantizes the whole weight and bias, contracts all 4096 indices at once, adds the bias along the rows and
   clamps at zero. The quantizer is the same function of an entry on both sides (same clip order, same constants,
   the same round-to-even and division), so the only difference is the grouping of a finite sum — sixteen consecutive
   partial sums of 256 terms against one sum of 4096 — and on the extended reals addition is associative and
   commutative with no side condition: the precondition that the inputs are finite is never opened.

   Proof/Spec.lean states the layer as one function and the regrouping law; Proof/Pieces.lean, Proof/Payload.lean and
   Proof/Blocks.lean read what one grid point stores and loads; Proof/KernelValue.lean sums the points of a K run and
   tiles the result array; Proof/RefValue.lean reads the reference. The ideal pass rewrote nothing, so the
   idealization claim is trivial; the three termination-and-frame claims are the programs' runs with the result
   forgotten. -/
import proofs.«149762_j42726334660724_1_alg».proof.Defs
import proofs.«149762_j42726334660724_1_alg».proof.Proof.Gen.Kernel
import proofs.«149762_j42726334660724_1_alg».proof.Proof.Gen.Kernel.Skeleton
import proofs.«149762_j42726334660724_1_alg».proof.Proof.Gen.Kernel.Launch
import proofs.«149762_j42726334660724_1_alg».proof.Proof.Gen.Kernel.Points
import proofs.«149762_j42726334660724_1_alg».proof.Proof.Gen.Kernel.Frame
import proofs.«149762_j42726334660724_1_alg».proof.Proof.Gen.KernelIdeal
import proofs.«149762_j42726334660724_1_alg».proof.Proof.Gen.KernelIdeal.Skeleton
import proofs.«149762_j42726334660724_1_alg».proof.Proof.Gen.KernelIdeal.Launch
import proofs.«149762_j42726334660724_1_alg».proof.Proof.Gen.KernelIdeal.Points
import proofs.«149762_j42726334660724_1_alg».proof.Proof.Gen.KernelIdeal.Frame
import proofs.«149762_j42726334660724_1_alg».proof.Proof.Gen.ReferenceIdeal
import proofs.«149762_j42726334660724_1_alg».proof.Proof.Gen.Pre_finite_inputs
import proofs.«149762_j42726334660724_1_alg».proof.Proof.Gen.KernelIdeal.Value
import proofs.«149762_j42726334660724_1_alg».proof.Proof.Gen.ReferenceIdeal.Run
import proofs.«149762_j42726334660724_1_alg».proof.Proof.Gen.ReferenceIdeal.Read
import proofs.«149762_j42726334660724_1_alg».proof.Proof.KernelValue
import proofs.«149762_j42726334660724_1_alg».proof.Proof.RefValue
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the dense layer of the (agreeing) arguments in their result arrays. -/
theorem algebraic : Cert.algebraic_KernelIdeal_ReferenceIdeal := by
  intro m ρ m' ρ' _ hagree
  refine ⟨fun c => Cert.QDense.dense (Cert.KernelIdeal.Blocks.argX m c) (Cert.KernelIdeal.Blocks.argW m c)
    (Cert.KernelIdeal.Blocks.argB m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
